-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S4x2048x2048 .f32) (main_arg1 : FVec F S8192x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S4x2048x2048 : Shape := ⟨3, ![4, 2048, 2048]⟩
abbrev S8192x2048 : Shape := ⟨2, ![8192, 2048]⟩
abbrev S1024x2048 : Shape := ⟨2, ![1024, 2048]⟩
abbrev S1024 : Shape := ⟨1, ![1024]⟩
abbrev S1024x1 : Shape := ⟨2, ![1024, 1]⟩
abbrev S8192x8192 : Shape := ⟨2, ![8192, 8192]⟩
abbrev S1024x1024 : Shape := ⟨2, ![1024, 1024]⟩
abbrev S2048x1024 : Shape := ⟨2, ![2048, 1024]⟩
abbrev S4x2048x8192 : Shape := ⟨3, ![4, 2048, 8192]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .bf16⟩
  | .hbm, ⟨3, _⟩ => ⟨S8192x2048, .f32⟩
  | .hbm, ⟨4, _⟩ => ⟨S8192x8192, .f32⟩
  | .hbm, ⟨5, _⟩ => ⟨S4x2048x8192, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | .local _ .vmem, ⟨8, _⟩ => ⟨S1024x1024, .f32⟩
  | .local _ .vmem, ⟨9, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  broadcasts_S1024x1_S1024x2048 : S1024x1.Broadcasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  shapeCasts_S4x2048x2048_S8192x2048 : S4x2048x2048.ShapeCasts S8192x2048
  shapeCasts_S1024x2048_S1024x2048 : S1024x2048.ShapeCasts S1024x2048
  transposes_S1024x2048_p1_0_S2048x1024 : S1024x2048.Transposes [1, 0] S2048x1024
  inb_S1024x1024_S1024x1024_0_0 : ∀ a, (![0, 0] : Fin 2 → Nat) a + S1024x1024.size a ≤ S1024x1024.size a
  h_S1024x1024 : 0 < S1024x1024.numel
  shapeCasts_S8192x8192_S4x2048x8192 : S8192x8192.ShapeCasts S4x2048x8192
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x2048.size a
  hwx1_1 : ∀ i : grid1.Coords, EltTy.bits .bf16 = 32 ∨ (Rect.block (s := S8192x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S4x2048x8192 : Shape := ⟨3, ![4, 2048, 8192]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.Spec.lean ====
/-
  The function both programs compute, over the extended reals.

  The weight matrix `w` has 8192 rows of 2048 entries. Row `r` gets a scale: the mean of the absolute
  values of its entries, floored at the single-precision number nearest 1e-5. Each entry is divided by
  its row's scale, rounded to the nearest integer (ties to even), clipped to [-1, 1] and multiplied back
  by the scale: the ternary weight. The result is the linear map `x ↦ x · ternaryᵀ`: entry (b, s, o) is the sum
  over `k` of `x (b, s, k) · ternary (o, k)`.

  The reference reaches the ternary weight through a straight-through estimator, `w + (q - w)`; on the
  extended reals that is `q` exactly when `w` is a real number (`add_sub_cancel_real`), which is where the
  finiteness of the inputs is used.
-/
import Idealize.ShloMosaic.PureOps.Ideal
import Idealize.ShloMosaic.Lib.ValueIdx

noncomputable section

namespace Cert.BitLinear

open Idealize.ShloMosaic Idealize.ShloMosaic.ValueIdx

/-- Indices of the weight matrix, of the activations and of the result. -/
abbrev WIdx := (⟨2, ![8192, 2048]⟩ : Shape).Idx
abbrev XIdx := (⟨3, ![4, 2048, 2048]⟩ : Shape).Idx
abbrev OIdx := (⟨3, ![4, 2048, 8192]⟩ : Shape).Idx

/-- The sum of the absolute values of row `r`. -/
def rowAbsSum (w : WIdx → EReal) (r : Fin 8192) : EReal :=
  ∑ k : Fin 2048, max (w (ix2 r k)) (-(w (ix2 r k)))

/-- Row `r`'s scale: the mean absolute value of its 2048 entries, floored at the single-precision
    number nearest 1e-5. -/
def rowScale (w : WIdx → EReal) (r : Fin 8192) : EReal :=
  max (Ideal.ofBits .f32 0x3727C5AC#32) (Ideal.div (rowAbsSum w r) (Ideal.ofBits .f32 0x45000000#32))

/-- The ternary weight at (r, k): the entry over its row's scale, rounded to nearest (ties to even),
    clipped to [-1, 1], times the scale. -/
def ternary (w : WIdx → EReal) (r : Fin 8192) (k : Fin 2048) : EReal :=
  min (Ideal.ofBits .f32 0x3F800000#32)
      (max (Ideal.ofBits .f32 0xBF800000#32)
        (Ideal.liftRound Ideal.roundHalfEven (Ideal.div (w (ix2 r k)) (rowScale w r))))
    * rowScale w r

/-- The ternary weight as an array. -/
def ternaryArr (w : WIdx → EReal) : WIdx → EReal := fun j => ternary w (j 0) (j 1)

/-- Every row of `a` against every row of `b`: entry (m, n) is the sum over `k` of `a (m, k) · b (n, k)`
    (the product of `a` with the transpose of `b`). -/
def rowsDot (a b : WIdx → EReal) : (⟨2, ![8192, 8192]⟩ : Shape).Idx → EReal := fun i =>
  ∑ k : Fin 2048, a (ix2 (i 0) k) * b (ix2 (i 1) k)

/-- The result: `x` times the transpose of the ternary weight. -/
def linear (x : XIdx → EReal) (w : WIdx → EReal) : OIdx → EReal := fun i =>
  ∑ k : Fin 2048, x (ix3 (i 0) (i 1) k) * ternary w (i 2) k

/-- Adding a real number and taking it away again changes nothing, whatever the other term is:
    `a + (q - a) = q` on the extended reals when `a` is real (at an infinite `a` it fails). -/
theorem add_sub_cancel_real (a : ℝ) (q : EReal) : (a : EReal) + (q - (a : EReal)) = q := by
  rw [sub_eq_add_neg, add_comm q, ← add_assoc, ← EReal.coe_neg, ← EReal.coe_add, add_neg_cancel,
    EReal.coe_zero, zero_add]

end Cert.BitLinear

end
-- ==== Proof.Finite.lean ====
/-
  Finiteness of the weights.

  The precondition's predicate is the conjunction of two "all" reductions: every |x| is below +∞ and
  every |w| is below +∞. When the predicate is all ones, the second reduction is one, so each
  comparison |w i| < +∞ holds; an extended real whose absolute value max (w i) (-(w i)) is below ⊤ is
  neither ⊤ nor ⊥, hence a real number.
-/
import proofs.«138639_j2525440770142_1_alg».proof.Proof.Gen.Pre_finite_inputs
import Idealize.ShloMosaic.Lib.ReduceAll
import Idealize.ShloMosaic.Lib.ValueIdx
import Idealize.ShloMosaic.PureOps.Ideal.Laws

noncomputable section

namespace Cert.BitLinear

open Idealize.ShloMosaic Idealize.ShloMosaic.ValueIdx

/-- The rank-zero shape has exactly one index. -/
instance : Subsingleton Cert.Pre_finite_inputs.S_.Idx := ⟨fun a b => funext fun d => d.elim0⟩

/-- The single-precision word of +∞ is the top of the extended reals. -/
theorem ofBits_inf : Ideal.ofBits .f32 0x7F800000#32 = (⊤ : EReal) := by simp [Ideal.ofBits, Ideal.ieee]

/-- An extended real whose absolute value is below ⊤ is a real number. -/
theorem real_of_abs_lt_top (a : EReal) (h : max a (-a) < (⊤ : EReal)) : ∃ r : ℝ, a = (r : EReal) := by
  induction a using EReal.rec with
  | bot => exact absurd h (by simp)
  | coe r => exact ⟨r, rfl⟩
  | top => exact absurd h (by simp)

/-- A strict "less than" comparison that answers one states the order. -/
theorem lt_of_cmp_olt (a b : EReal) (h : Ideal.cmp .olt a b = 1#1) : a < b := by
  by_cases hab : a < b
  · exact hab
  · simp [Ideal.cmp, hab] at h

/-- every weight is a real number when the precondition's predicate is all ones -/
theorem weight_real (x : FVec Ideal Cert.Pre_finite_inputs.S4x2048x2048 .f32) (w : FVec Ideal Cert.Pre_finite_inputs.S8192x2048 .f32)
    (h : Cert.Pre_finite_inputs.fn (F := Ideal) x w = fun _ => 1#1) : ∀ i, ∃ r : ℝ, w i = (r : EReal) := by
  intro i
  have h0 := congrFun h ValueIdx.ix0
  dsimp only [Cert.Pre_finite_inputs.fn] at h0
  obtain ⟨_, h2⟩ := IntOp.andi_eq_one.1 h0
  have hi := Host.reduce_andi_all _ _ _ _ _ h2 i
  have hlt : max (w i) (-(w i)) < (⊤ : EReal) := by
    have hc : Ideal.cmp .olt (max (w i) (-(w i))) (Ideal.ofBits .f32 0x7F800000#32) = 1#1 := hi
    rw [ofBits_inf] at hc
    exact lt_of_cmp_olt _ _ hc
  exact real_of_abs_lt_top (w i) hlt

end Cert.BitLinear

end
-- ==== Proof.RefValue.lean ====
import proofs.«138639_j2525440770142_1_alg».proof.Proof.Gen.ReferenceIdeal.Run
import proofs.«138639_j2525440770142_1_alg».proof.Proof.Gen.ReferenceIdeal.Read
import proofs.«138639_j2525440770142_1_alg».proof.Proof.Spec

/-
  The reference computes the specification.

  Stage by stage: the row sum of absolute values over 2048 is floored at the constant and gives the
  row's scale; the entry over the scale is rounded to nearest (ties to even), clipped to [-1, 1] and
  multiplied back by the scale: the ternary weight q. The reference then forms w + (q - w), which on
  the extended reals is q when w is a real number, and contracts x against it over the last axis.
-/

noncomputable section

namespace Cert.BitLinear

open Idealize.ShloMosaic Idealize.ShloMosaic.ValueIdx
open Cert.ReferenceIdeal Cert.ReferenceIdeal.Read

/-- Row r of the column of scales is read from the row sum at r, whose k-th term sits at (r, k). -/
theorem idx_row (r : Fin 8192) (k : Fin 2048) :
    idx_main_v1 (idx_main_v2 (ix2 r (0 : Fin 1))) k = ix2 r k :=
  funext fun a => Fin.ext (by match a with | ⟨0, _⟩ => rfl | ⟨1, _⟩ => rfl)

/-- Entry (r, k) reads the column of scales at row r (the divisor). -/
theorem idx_div (r : Fin 8192) (k : Fin 2048) : idx_main_v6 (ix2 r k) = ix2 r (0 : Fin 1) :=
  funext fun a => Fin.ext (by match a with | ⟨0, _⟩ => rfl | ⟨1, _⟩ => rfl)

/-- Entry (r, k) reads the column of scales at row r (the factor). -/
theorem idx_mul (r : Fin 8192) (k : Fin 2048) : idx_main_v10 (ix2 r k) = ix2 r (0 : Fin 1) :=
  funext fun a => Fin.ext (by match a with | ⟨0, _⟩ => rfl | ⟨1, _⟩ => rfl)

/-- The column of scales at row r is the row's scale: the mean absolute value floored at the constant. -/
theorem scale_eq (w : (⟨S8192x2048, .f32⟩ : BufTy).Contents (Elt Ideal)) (r : Fin 8192) :
    val_main_v5 (F := Ideal) w (ix2 r (0 : Fin 1)) = rowScale w r := by
  rw [val_main_v5_apply, val_main_call0_v1_apply, val_main_call0_v0_apply, val_main_cst_1_apply, val_main_v4_apply,
    val_main_v2_apply, val_main_v1_apply, val_main_cst_apply, val_main_v3_apply, val_main_cst_0_apply]
  simp only [val_main_v0_apply, idx_row, Ideal.maximumf_def, Ideal.hostDivf_def, Ideal.hostAbsf_def, Ideal.absf_def,
    Ideal.ofBits_def, Ideal.ofBits_zero_f32, zero_add]
  rfl

/-- The product stage at (r, k) is the ternary weight. -/
theorem scaled_eq (w : (⟨S8192x2048, .f32⟩ : BufTy).Contents (Elt Ideal)) (r : Fin 8192) (k : Fin 2048) :
    val_main_v11 (F := Ideal) w (ix2 r k) = ternary w r k := by
  rw [val_main_v11_apply, val_main_v9_apply, val_main_call2_v4_apply, val_main_call2_v3_apply, val_main_cst_3_apply,
    val_main_call2_v2_apply, val_main_call2_v1_apply, val_main_call2_v0_apply, val_main_cst_2_apply, val_main_v8_apply,
    val_main_v7_apply, val_main_v6_apply, val_main_v10_apply, idx_div, idx_mul, scale_eq]
  simp only [Ideal.mulf_def, Ideal.minimumf_def, Ideal.maximumf_def, Ideal.hostUnary_roundeven_def, Ideal.hostDivf_def,
    Ideal.ofBits_def]
  rfl

/-- The straight-through stage w + (q - w) at (r, k) is the ternary weight when the entry is real. -/
theorem ste_eq (w : (⟨S8192x2048, .f32⟩ : BufTy).Contents (Elt Ideal)) (hw : ∀ i, ∃ r : ℝ, w i = (r : EReal))
    (r : Fin 8192) (k : Fin 2048) : val_main_v13 (F := Ideal) w (ix2 r k) = ternary w r k := by
  obtain ⟨a, ha⟩ := hw (ix2 r k)
  rw [val_main_v13_apply, val_main_v12_apply, scaled_eq]
  simp only [Ideal.addf_def, Ideal.subf_def]
  rw [ha]
  exact add_sub_cancel_real a _

/-- The left operand of the contraction at ((b, s, o), k) is x at (b, s, k). -/
theorem idx_lhs (b : Fin 4) (s : Fin 2048) (o : Fin 8192) (k : Fin 2048) :
    lidx_main_v14 (ix3 b s o) k = ix3 b s k :=
  funext fun a => Fin.ext (by match a with | ⟨0, _⟩ => rfl | ⟨1, _⟩ => rfl | ⟨2, _⟩ => rfl)

/-- The right operand of the contraction at ((b, s, o), k) is the weight stage at (o, k). -/
theorem idx_rhs (b : Fin 4) (s : Fin 2048) (o : Fin 8192) (k : Fin 2048) :
    ridx_main_v14 (ix3 b s o) k = ix2 o k :=
  funext fun a => Fin.ext (by match a with | ⟨0, _⟩ => rfl | ⟨1, _⟩ => rfl)

/-- the reference's last stage is the specification, when every weight is real -/
theorem ref_linear (x : (⟨Cert.ReferenceIdeal.S4x2048x2048, .f32⟩ : BufTy).Contents (Elt Ideal))
    (w : (⟨Cert.ReferenceIdeal.S8192x2048, .f32⟩ : BufTy).Contents (Elt Ideal))
    (hw : ∀ i, ∃ r : ℝ, w i = (r : EReal)) :
    Cert.ReferenceIdeal.Read.val_main_v14 (F := Ideal) x w = linear x w := by
  funext i
  obtain ⟨b, s, o, rfl⟩ : ∃ (b : Fin 4) (s : Fin 2048) (o : Fin 8192), i = ix3 b s o := ⟨i 0, i 1, i 2, eq_ix3 i⟩
  rw [val_main_v14_apply]
  show ∑ k : Fin 2048, _ = ∑ k : Fin 2048, x (ix3 b s k) * ternary w o k
  refine Finset.sum_congr rfl fun k _ => ?_
  rw [idx_lhs, idx_rhs, ste_eq w hw]

end Cert.BitLinear

end
-- ==== Proof.QuantPayload.lean ====
/-
  The quantiser's body, read at an index.

  The body sees one block of 1024 whole rows of the weight matrix. For row `p` of the block it sums the absolute values
  of the row's 2048 entries, divides by 2048 and floors the quotient at the small constant: a column of 1024 scales. Entry
  (p, q) of the result is the entry over its row's scale, rounded to nearest even, clipped to [-1, 1], times the scale.
  A row of the block that is row `r` of the whole matrix therefore gets row `r`'s ternary weights: nothing in the
  computation looks outside the row.
-/
import proofs.«138639_j2525440770142_1_alg».proof.Proof.Gen.KernelIdeal.Skeleton
import proofs.«138639_j2525440770142_1_alg».proof.Proof.Spec
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.TcCoe Idealize.SL.Sem Idealize.ShloMosaic.ValueIdx
open Cert.BitLinear

/-- A column read at (p, 0) after a cast from a vector of length 1024 is the vector at p. -/
theorem cast_column_apply {α : Type} (v : S1024.Idx → α) (h : S1024.ShapeCasts S1024x1) (p : Fin 1024) :
    shapeCast S1024x1 v h (ix2 p (0 : Fin 1)) = v (ix1 p) :=
  shapeCast_apply v h _ _ (by
    rw [Shape.rowMajor_val_two, Shape.rowMajor_val_one]
    show p.val = p.val * 1 + 0
    omega)

/-- A column of 1024 broadcast along 2048 lanes reads, at (p, q), the column at (p, 0). -/
theorem bcast_column_apply {α : Type} (v : S1024x1.Idx → α) (h : S1024x1.Broadcasts S1024x2048) (p : Fin 1024) (q : Fin 2048) :
    broadcastTo S1024x2048 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The index over (p) with lane `k` put back on the reduced axis is (p, k). -/
theorem lift_row (p : Fin 1024) (k : Fin (S1024x2048.size 1)) :
    reduces_S1024x2048_S1024.lift (ix1 p) k = ix2 p k := by
  funext a
  apply Fin.ext
  rw [Shape.Reduces.lift_val]
  match a with
  | ⟨0, _⟩ => simp [Shape.Reduces.liftVal]
  | ⟨1, _⟩ => simp [Shape.Reduces.liftVal]

/-- The lane sum of the absolute values, read at row `p`: the sum over the 2048 lanes of `max x (-x)`. -/
theorem row_abs_sum (x0 : Vec Ideal S1024x2048 .f32) (p : Fin 1024) :
    multiReduction (F := Ideal) .add [1] S1024 (absf (F := Ideal) x0) 0x00000000#32 reduces_S1024x2048_S1024 (.inl rfl) rfl (ix1 p)
      = ∑ k : Fin 2048, max (x0 (ix2 p k)) (-(x0 (ix2 p k))) :=
  (Ideal.multiReduction_add_single (absf (F := Ideal) x0) 0x00000000#32 reduces_S1024x2048_S1024 (.inl rfl) rfl (ix1 p)).trans
    (Finset.sum_congr rfl fun k _ => by rw [lift_row]; rfl)

/-- The column of scales the body computes from a block. -/
def scaleCol (x0 : Vec Ideal S1024x2048 .f32) : FVec Ideal S1024x1 .f32 :=
  maximumf (broadcast S1024x1 (Scalar.ofBits .f32 0x3727C5AC#32))
    (divf (shapeCast S1024x1 (multiReduction .add [1] S1024 (absf x0) 0x00000000#32 reduces_S1024x2048_S1024 (.inl rfl) rfl) shapeCasts_S1024_S1024x1)
      (broadcast S1024x1 (Scalar.ofBits .f32 0x45000000#32)))

/-- The body's result is this tree of operations over the block and its column of scales. -/
theorem quant_pay_eq (x0 : Vec Ideal S1024x2048 .f32) :
    k0_pay1 (F := Ideal) x0
      = truncf .bf16 (mulf (minimumf (broadcast S1024x2048 (Scalar.ofBits .f32 0x3F800000#32))
          (maximumf (broadcast S1024x2048 (Scalar.ofBits .f32 0xBF800000#32))
            (roundeven (divf x0 (broadcastTo S1024x2048 (scaleCol x0) broadcasts_S1024x1_S1024x2048)))))
          (broadcastTo S1024x2048 (scaleCol x0) broadcasts_S1024x1_S1024x2048)) bitsLt_bf16_f32 := rfl

/-- Row `p` of the block being row `r` of the matrix, the block's scale for `p` is the matrix's for `r`. -/
theorem scaleCol_apply (x0 : Vec Ideal S1024x2048 .f32) (w : WIdx → EReal) (r : Fin 8192) (p : Fin 1024)
    (hrow : ∀ k : Fin 2048, x0 (ix2 p k) = w (ix2 r k)) :
    scaleCol x0 (ix2 p (0 : Fin 1)) = rowScale w r := by
  unfold scaleCol rowScale rowAbsSum
  show max (Ideal.ofBits .f32 0x3727C5AC#32)
      (Ideal.div (shapeCast S1024x1 (multiReduction (F := Ideal) .add [1] S1024 (absf (F := Ideal) x0) 0x00000000#32 reduces_S1024x2048_S1024 (.inl rfl) rfl) shapeCasts_S1024_S1024x1 (ix2 p (0 : Fin 1)))
        (Ideal.ofBits .f32 0x45000000#32)) = _
  rw [cast_column_apply]
  exact congrArg (fun s => max (Ideal.ofBits .f32 0x3727C5AC#32) (Ideal.div s (Ideal.ofBits .f32 0x45000000#32)))
    ((row_abs_sum x0 p).trans (Finset.sum_congr rfl fun k _ => by rw [hrow k]))

/-- THE PAYLOAD AT AN INDEX: row `p` of the block being row `r` of the matrix, entry (p, q) of the body's result is
    the ternary weight at (r, q). -/
theorem quant_payload (x0 : Vec Ideal S1024x2048 .f32) (w : WIdx → EReal) (r : Fin 8192) (p : Fin 1024)
    (hrow : ∀ k : Fin 2048, x0 (ix2 p k) = w (ix2 r k)) (q : Fin 2048) :
    k0_pay1 (F := Ideal) x0 (ix2 p q) = ternary w r q := by
  rw [quant_pay_eq]
  show min (Ideal.ofBits .f32 0x3F800000#32)
        (max (Ideal.ofBits .f32 0xBF800000#32)
          (Ideal.liftRound Ideal.roundHalfEven (Ideal.div (x0 (ix2 p q))
            (broadcastTo S1024x2048 (scaleCol x0) broadcasts_S1024x1_S1024x2048 (ix2 p q)))))
      * broadcastTo S1024x2048 (scaleCol x0) broadcasts_S1024x1_S1024x2048 (ix2 p q) = _
  rw [bcast_column_apply, scaleCol_apply x0 w r p hrow, hrow q]
  rfl

end Cert.KernelIdeal.Gen

end
-- ==== Proof.QuantRegion.lean ====
/-
  Region 0, from blocks to the array.

  The quantiser runs over 8 grid points. Point `t` reads rows 1024·t … 1024·t + 1023 of the weight matrix, all 2048 lanes,
  and writes the same rows of the result. Since a row's ternary weights depend on that row alone, what point `t` writes
  back is block `t` of ONE array, the ternary weight of the whole matrix; the eight blocks cover the 8192 rows, so after
  the last point the result array is that array.
-/
import proofs.«138639_j2525440770142_1_alg».proof.Proof.Gen.KernelIdeal.Frame
import proofs.«138639_j2525440770142_1_alg».proof.Proof.QuantPayload

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)
open Cert.BitLinear

variable (V : (c : Dev nD) → (b : Ref sig .tc) → Buf (Elt Ideal) ((c : Thread nD τ).loc b))

theorem quant_origin : (![0, 0] : Fin 2 → Nat) = fun _ => 0 := funext fun a => by fin_cases a <;> rfl

/-- The two windows' index maps over the grid: the input block and the output block sit on the same rows, both span all
    lanes, and there are eight row blocks. -/
theorem quant_idx_facts : ∀ t : Fin cfg0.N,
    win0_0.index t (0 : Fin 2) = win0_1.index t (0 : Fin 2)
    ∧ win0_0.index t (1 : Fin 2) = 0 ∧ win0_1.index t (1 : Fin 2) = 0
    ∧ win0_1.index t (0 : Fin 2) ≤ 7 :=
  (by decide +kernel : ∀ t : Fin grid0.N, _)

/-- Every row block is some point's. -/
theorem quant_idx_onto : ∀ q0 : Fin 8, ∃ t : Fin cfg0.N, win0_1.index t = ![q0.val, 0] :=
  (by decide +kernel : ∀ q0 : Fin 8, ∃ t : Fin grid0.N, win0_1.index t = ![q0.val, 0])

/-- The block of the weight matrix point `t` reads, at its literal type. -/
abbrev wblk (c : Dev nD) (t : Fin cfg0.N) : Vec Ideal S1024x2048 .f32 := iblk0 V c 0 t

/-- AT A POINT: entry `j` of what the body computes from point `t`'s block is the ternary weight at the place of the
    matrix the output block puts `j`. -/
theorem quant_point (c : Dev nD) (t : Fin cfg0.N) (j : S1024x2048.Idx) :
    k0_pay1 (F := Ideal) (wblk V c t) j = ternaryArr (V c main_arg1) (((cfg0.win 1).blk t).view.emb j) := by
  obtain ⟨p, q, rfl⟩ : ∃ (p : Fin 1024) (q : Fin 2048), j = ix2 p q := ⟨j 0, j 1, eq_ix2 j⟩
  obtain ⟨e0, e1, e2, e3⟩ := quant_idx_facts t
  have hp : p.val < 1024 := p.isLt
  have hr : win0_1.index t (0 : Fin 2) * 1024 + 1 * p.val < 8192 := by omega
  have hemb : ((cfg0.win 1).blk t).view.emb (ix2 p q) = ix2 (⟨win0_1.index t (0 : Fin 2) * 1024 + 1 * p.val, hr⟩ : Fin 8192) q := by
    funext a; apply Fin.ext
    match a with
    | ⟨0, _⟩ => rfl
    | ⟨1, _⟩ => show win0_1.index t (1 : Fin 2) * 2048 + 1 * q.val = q.val; omega
  rw [hemb]
  refine quant_payload (wblk V c t) (V c main_arg1) ⟨win0_1.index t (0 : Fin 2) * 1024 + 1 * p.val, hr⟩ p (fun k => ?_) q
  show V c main_arg1 (((cfg0.win 0).blk t).view.emb (ix2 p k)) = V c main_arg1 (ix2 _ k)
  refine congrArg (V c main_arg1) ?_
  funext a; apply Fin.ext
  match a with
  | ⟨0, _⟩ => show win0_0.index t (0 : Fin 2) * 1024 + 1 * p.val = win0_1.index t (0 : Fin 2) * 1024 + 1 * p.val; omega
  | ⟨1, _⟩ => show win0_0.index t (1 : Fin 2) * 2048 + 1 * k.val = k.val; have := k.isLt; omega

/-- WHAT POINT `t` WRITES BACK is block `t` of the ternary weight of the matrix the region finds. -/
theorem quant_flushed_eq (c : Dev nD) (t : Fin cfg0.N) :
    (dat0 (F := Ideal) V c).flushed 1 t = ((cfg0.win 1).blk t).view.read (Elt Ideal) (ternaryArr (V c main_arg1)) := by
  show (cfg0.win 1).cut (grid0.coords t) ((dat0 V c).after 1 t) = _
  rw [after0_1]
  unfold out0_1
  rw [View.canon_unit_zero quant_origin]
  simp only [View.ld_unit_zero (S := S1024x2048) quant_origin]
  funext j
  exact quant_point V c t j

/-- An index of the result array is in point `t`'s block iff each coordinate is in the block's range on its axis. -/
theorem quant_mem_blk (t : Fin cfg0.N) (i : S8192x2048.Idx) :
    i ∈ ((cfg0.win 1).blk t).view.set ↔ ∀ a : Fin 2, win0_1.index t a * S1024x2048.size a ≤ (i a).val ∧ (i a).val < win0_1.index t a * S1024x2048.size a + S1024x2048.size a := by
  show i ∈ ((View.whole main_v0).slice (win0_1.rect t)).set ↔ _
  rw [View.set_slice_whole, Rect.mem_set_unit]
  exact Iff.rfl

/-- The eight row blocks cover the array: row `r` is in the block of the point whose row block is `r / 1024`. -/
theorem quant_cover (i : S8192x2048.Idx) :
    ∃ t : Fin cfg0.N, (cfg0.win 1).flush t = true ∧ i ∈ ((cfg0.win 1).blk t).view.set := by
  have hi0 : (i 0).val < 8192 := (i 0).isLt
  have hi1 : (i 1).val < 2048 := (i 1).isLt
  obtain ⟨t, ht⟩ := quant_idx_onto ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [quant_mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 2048 ≤ (i 1).val ∧ (i 1).val < win0_1.index t (1 : Fin 2) * 2048 + 2048; omega

/-- THE ARRAY after region 0: the ternary weight of the weight matrix the region finds, whatever else it finds. -/
theorem quant_arr (c : Dev nD) :
    (dat0 (F := Ideal) V c).arrAt 1 cfg0.N = ternaryArr (V c main_arg1) :=
  (dat0 V c).arrAt_eq_of_cover 1 (ternaryArr (V c main_arg1)) (fun t _ => quant_flushed_eq V c t) quant_cover

end Cert.KernelIdeal.Gen

end
-- ==== Proof.MatmulRegion.lean ====
/-
  The tiled matrix product, as one array.

  The region runs on an 8 × 8 grid. At grid point (i, j) it reads block row i of the left array (1024 rows of
  2048 entries), block row j of the right array (1024 rows of 2048 entries), and writes the 1024 × 1024 block
  (i, j) of the output: the left block times the transpose of the right block, summed exactly. Entry (p, q) of
  that block is the sum over k of left(i·1024 + p, k) · right(j·1024 + q, k), which is entry
  (i·1024 + p, j·1024 + q) of the array of all row products. The 64 blocks tile the 8192 × 8192 output, so after
  the last point the output array is that array everywhere, whatever it held before.
-/
import proofs.«138639_j2525440770142_1_alg».proof.Proof.Gen.KernelIdeal.Frame
import proofs.«138639_j2525440770142_1_alg».proof.Proof.Spec
import Idealize.ShloMosaic.Lib.Pipeline.Value
import Idealize.ShloMosaic.Lib.ValueIdx
import Idealize.ShloMosaic.PureOps.Ideal.Laws

noncomputable section
namespace Cert.KernelIdeal.Gen
open Idealize.ShloMosaic Idealize.ShloMosaic.TcCoe Idealize.SL.Sem Idealize.ShloMosaic.ValueIdx
open Idealize.ShloMosaic.Pipeline (Dat Cfg Window)

/-! ## The product record's operand indices

The block product contracts the second axis of its left operand with the first axis of its right operand:
at output index (i₀, i₁) and contraction position k the left operand is read at (i₀, k) and the right at (k, i₁). -/

theorem lhs_blockDot_0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs_blockDot_1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem rhs_blockDot_0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem rhs_blockDot_1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-! ## The body's product at an index -/

/-- Entry (p, q) of the block product: row p of the left block against row q of the right block
    (the right block enters the product transposed). -/
theorem blockProduct_apply (x0 : Vec Ideal S1024x2048 .f32) (x1 : Vec Ideal S1024x2048 .bf16) (p q : Fin 1024) :
    k1_pay1 (F := Ideal) x0 x1 (ix2 p q) = ∑ k : Fin 2048, x0 (ix2 p k) * x1 (ix2 q k) := by
  unfold k1_pay1
  simp only [matmul]
  rw [Ideal.matmul_constant_zero_apply, ← Equiv.sum_comp (ValueIdx.contrEquiv1 dot_S1024x2048_S2048x1024_S1024x1024_1_0_0_1_n_n 2048 rfl rfl).symm]
  refine Finset.sum_congr rfl fun k _ => ?_
  have hk := ValueIdx.contrEquiv1_symm_val dot_S1024x2048_S2048x1024_S1024x1024_1_0_0_1_n_n 2048 rfl rfl k
  have el : dot_S1024x2048_S2048x1024_S1024x1024_1_0_0_1_n_n.lhsIdx (ix2 p q) ((ValueIdx.contrEquiv1 dot_S1024x2048_S2048x1024_S1024x1024_1_0_0_1_n_n 2048 rfl rfl).symm k) = (ix2 p k : S1024x2048.Idx) := funext fun a => Fin.ext (by
    match a with
    | ⟨0, _⟩ => exact lhs_blockDot_0 _ _
    | ⟨1, _⟩ => exact (lhs_blockDot_1 _ _).trans hk)
  have er : dot_S1024x2048_S2048x1024_S1024x1024_1_0_0_1_n_n.rhsIdx (ix2 p q) ((ValueIdx.contrEquiv1 dot_S1024x2048_S2048x1024_S1024x1024_1_0_0_1_n_n 2048 rfl rfl).symm k) = (ix2 k q : S2048x1024.Idx) := funext fun a => Fin.ext (by
    match a with
    | ⟨0, _⟩ => exact (rhs_blockDot_0 _ _).trans hk
    | ⟨1, _⟩ => exact rhs_blockDot_1 _ _)
  rw [el, er, shapeCast_self, shapeCast_self,
    transpose_apply [1, 0] x1 transposes_S1024x2048_p1_0_S2048x1024 (ix2 k q) (ix2 q k)
      (fun b => by match b with | ⟨0, _⟩ => rfl | ⟨1, _⟩ => rfl)]
  rfl

/-- Rows of two arrays, each read through a block of 1024 rows, multiply to a block of the array of all row
    products: if the left block holds rows `bi * 1024 + ·` of `A` and the right block rows `bj * 1024 + ·` of `B`,
    then entry `j` of the block product is entry `(bi * 1024 + j₀, bj * 1024 + j₁)` of `rowsDot A B`. -/
theorem blockProduct_eq_rowsDot (A B : Cert.BitLinear.WIdx → EReal)
    (x0 : Vec Ideal S1024x2048 .f32) (x1 : Vec Ideal S1024x2048 .bf16) (bi bj : Nat)
    (h0 : ∀ (y : S1024x2048.Idx) (r : Fin 8192), r.val = bi * 1024 + (y 0).val → x0 y = A (ix2 r (y 1)))
    (h1 : ∀ (y : S1024x2048.Idx) (r : Fin 8192), r.val = bj * 1024 + (y 0).val → x1 y = B (ix2 r (y 1)))
    (j : S1024x1024.Idx) (i : S8192x8192.Idx)
    (hi0 : (i 0).val = bi * 1024 + (j 0).val) (hi1 : (i 1).val = bj * 1024 + (j 1).val) :
    k1_pay1 (F := Ideal) x0 x1 j = Cert.BitLinear.rowsDot A B i := by
  obtain ⟨p, q, rfl⟩ : ∃ (p q : Fin 1024), j = ix2 p q := ⟨j 0, j 1, eq_ix2 j⟩
  rw [blockProduct_apply]
  unfold Cert.BitLinear.rowsDot
  refine Finset.sum_congr rfl fun k _ => ?_
  rw [h0 (ix2 p k) (i 0) hi0, h1 (ix2 q k) (i 1) hi1]

/-! ## The grid: which blocks a point reads and writes -/

theorem zeroOffsets : (![0, 0] : Fin 2 → Nat) = fun _ => 0 := funext fun a => by fin_cases a <;> rfl

/-- At every grid point the left operand's block is the block row of the output's block, the right operand's
    block is the block row numbered by the output's block column, both span all 2048 columns, and the output's
    block indices are at most 7. -/
theorem blockIndices : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7 ∧ win1_2.index t (1 : Fin 2) ≤ 7 :=
  (by decide +kernel : ∀ t : Fin grid1.N, _)

/-- Every one of the 8 × 8 output blocks is some grid point's. -/
theorem blockIndices_onto : ∀ (q0 : Fin 8) (q1 : Fin 8), ∃ t : Fin cfg1.N, win1_2.index t = ![q0.val, q1.val] :=
  (by decide +kernel : ∀ (q0 : Fin 8) (q1 : Fin 8), ∃ t : Fin grid1.N, win1_2.index t = ![q0.val, q1.val])

variable (V : (c : Dev nD) → (b : Ref sig .tc) → Buf (Elt Ideal) ((c : Thread nD τ).loc b))

/-- The left operand's block at a point, at its literal type. -/
abbrev leftBlock (c : Dev nD) (t : Fin cfg1.N) : Vec Ideal S1024x2048 .f32 := iblk1 (F := Ideal) V c 0 t
/-- The right operand's block at a point, at its literal type. -/
abbrev rightBlock (c : Dev nD) (t : Fin cfg1.N) : Vec Ideal S1024x2048 .bf16 := iblk1 (F := Ideal) V c 1 t

/-- The left block at point `t` holds rows `index × 1024 + ·` of the left array. -/
theorem leftBlock_apply (c : Dev nD) (t : Fin cfg1.N) (y : S1024x2048.Idx) (r : Fin 8192)
    (hr : r.val = win1_2.index t (0 : Fin 2) * 1024 + (y 0).val) :
    leftBlock V c t y = V c main_v1 (ix2 r (y 1)) := by
  obtain ⟨e0, e1, e2, e3, e4, e5⟩ := blockIndices t
  show V c main_v1 (((cfg1.win 0).blk t).view.emb y) = V c main_v1 (ix2 r (y 1))
  refine congrArg _ (funext fun a => Fin.ext ?_)
  match a with
  | ⟨0, _⟩ => show win1_0.index t (0 : Fin 2) * 1024 + 1 * (y 0).val = r.val; omega
  | ⟨1, _⟩ => show win1_0.index t (1 : Fin 2) * 2048 + 1 * (y 1).val = (y 1).val; omega

/-- The right block at point `t` holds rows `index × 1024 + ·` of the right array, the index being the output
    block's column. -/
theorem rightBlock_apply (c : Dev nD) (t : Fin cfg1.N) (y : S1024x2048.Idx) (r : Fin 8192)
    (hr : r.val = win1_2.index t (1 : Fin 2) * 1024 + (y 0).val) :
    rightBlock V c t y = V c main_v0 (ix2 r (y 1)) := by
  obtain ⟨e0, e1, e2, e3, e4, e5⟩ := blockIndices t
  show V c main_v0 (((cfg1.win 1).blk t).view.emb y) = V c main_v0 (ix2 r (y 1))
  refine congrArg _ (funext fun a => Fin.ext ?_)
  match a with
  | ⟨0, _⟩ => show win1_1.index t (0 : Fin 2) * 1024 + 1 * (y 0).val = r.val; omega
  | ⟨1, _⟩ => show win1_1.index t (1 : Fin 2) * 2048 + 1 * (y 1).val = (y 1).val; omega

/-- What point `t` writes back is block `t` of the array of all row products. -/
theorem flushed_eq_rowsDot (c : Dev nD) (t : Fin cfg1.N) :
    (dat1 (F := Ideal) V c).flushed 2 t
      = ((cfg1.win 2).blk t).view.read (Elt Ideal) (Cert.BitLinear.rowsDot (V c main_v1) (V c main_v0)) := by
  show (cfg1.win 2).cut (grid1.coords t) ((dat1 (F := Ideal) V c).after 2 t) = _
  rw [after1_2]
  unfold out1_2
  rw [View.canon_unit_zero zeroOffsets]
  simp only [View.ld_unit_zero (S := S1024x2048) zeroOffsets]
  funext j
  exact blockProduct_eq_rowsDot (V c main_v1) (V c main_v0) (leftBlock V c t) (rightBlock V c t)
    (win1_2.index t (0 : Fin 2)) (win1_2.index t (1 : Fin 2))
    (fun y r hr => leftBlock_apply V c t y r hr) (fun y r hr => rightBlock_apply V c t y r hr)
    j (((cfg1.win 2).blk t).view.emb j)
    (by show win1_2.index t (0 : Fin 2) * 1024 + 1 * (j 0).val = _; omega)
    (by show win1_2.index t (1 : Fin 2) * 1024 + 1 * (j 1).val = _; omega)

/-! ## The output's blocks tile the array -/

/-- An index of the output array is in point `t`'s block iff each coordinate is in the block's range on its axis. -/
theorem mem_outBlock (t : Fin cfg1.N) (i : S8192x8192.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v2).slice (win1_2.rect t)).set ↔ _
  rw [View.set_slice_whole, Rect.mem_set_unit]
  exact Iff.rfl

/-- Every index (m, n) of the output array lies in the block of the point whose block indices are
    (m / 1024, n / 1024), and that point writes its block back. -/
theorem outBlocks_cover (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := blockIndices_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_outBlock]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-! ## The array after the region -/

/-- Whatever the region is entered with, after all 64 grid points the output array holds, at (m, n), the sum
    over k of the left array at (m, k) times the right array at (n, k). -/
theorem matmul_arr (c : Dev nD) :
    (dat1 (F := Ideal) V c).arrAt 2 cfg1.N = Cert.BitLinear.rowsDot (V c main_v1) (V c main_v0) :=
  (dat1 (F := Ideal) V c).arrAt_eq_of_cover 2 (Cert.BitLinear.rowsDot (V c main_v1) (V c main_v0))
    (fun t _ => flushed_eq_rowsDot V c t) outBlocks_cover

end Cert.KernelIdeal.Gen
end
-- ==== Proof.KernelValue.lean ====
/-
  The idealized kernel's result as one function of its two arguments.

  @main is: region 0 (the quantiser, writing the ternary weight array), a reshape of the activations from [4, 2048, 2048]
  to [8192, 2048], region 1 (every row of the reshaped activations against every row of the ternary weight), and a reshape
  of the [8192, 8192] product to [4, 2048, 8192]. Reading the buffer contents boundary by boundary, backwards from the
  result: the last reshape of the product array; the product array is rows-against-rows of what region 1 finds in its two
  input arrays; of those, one is the reshape of the launch activations (region 0 does not touch them) and the other is
  region 0's result, the ternary weight of the launch weights. Row-major reshapes keep the last axis and merge the first
  two, (b, s) ↦ 2048·b + s, so entry (b, s, o) of the result is the sum over `k` of `x (b, s, k) · ternary (o, k)`.
-/
import proofs.«138639_j2525440770142_1_alg».proof.Proof.Gen.KernelIdeal.Frame
import proofs.«138639_j2525440770142_1_alg».proof.Proof.Spec
import Idealize.ShloMosaic.Lib.StableHlo.Run
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx Idealize.ShloMosaic.StableHlo
open Cert.BitLinear

/-- THE RESHAPES: merging the two leading axes of `x`, taking rows against rows of `q`, and splitting the leading axis of
    the product again gives, at (b, s, o), the sum over `k` of `x (b, s, k) · q (o, k)`. -/
theorem reshape_rowsDot (x : XIdx → EReal) (q : WIdx → EReal)
    (hx : S4x2048x2048.ShapeCasts S8192x2048) (ho : S8192x8192.ShapeCasts S4x2048x8192) :
    shapeCast S4x2048x8192 (rowsDot (shapeCast S8192x2048 x hx) q) ho
      = fun i => ∑ k : Fin 2048, x (ix3 (i 0) (i 1) k) * q (ix2 (i 2) k) := by
  funext i
  obtain ⟨b, s, o, rfl⟩ : ∃ (b : Fin 4) (s : Fin 2048) (o : Fin 8192), i = ix3 b s o := ⟨i 0, i 1, i 2, eq_ix3 i⟩
  have hb : b.val < 4 := b.isLt
  have hs : s.val < 2048 := s.isLt
  have hr : b.val * 2048 + s.val < 8192 := by omega
  rw [shapeCast_apply _ ho (ix3 b s o) (ix2 (⟨b.val * 2048 + s.val, hr⟩ : Fin 8192) o) (by
      rw [Shape.rowMajor_val_two, Shape.rowMajor_val_three]; rfl)]
  show ∑ k : Fin 2048, shapeCast S8192x2048 x hx (ix2 (⟨b.val * 2048 + s.val, hr⟩ : Fin 8192) k) * q (ix2 o k) = _
  refine Finset.sum_congr rfl fun k _ => ?_
  rw [shapeCast_apply x hx (ix2 (⟨b.val * 2048 + s.val, hr⟩ : Fin 8192) k) (ix3 b s k) (by
      rw [Shape.rowMajor_val_two, Shape.rowMajor_val_three]; rfl)]

variable (m : (ℓ : Loc nD τ sig) → Buf (Elt Ideal) ℓ) (ρ : Dev nD → PrngReg)

/-- After the last reshape the result buffer holds the reshape of region 1's output array. -/
theorem W4_result (c : Dev nD) :
    W4 m ρ c (Proc.devRef .tc main_v3)
      = shapeCast S4x2048x8192 (W3 m ρ c (Proc.devRef .tc main_v2)) shapeCasts_S8192x8192_S4x2048x8192 := by
  show StableHlo.after hostOps2 (W3 m ρ c) (Proc.devRef .tc main_v3) = _
  after_results
  rfl

/-- Region 1 finds, in its first input array, the reshape of what region 0 left in the activations' buffer. -/
theorem W2_acts (c : Dev nD) :
    W2 m ρ c (Proc.devRef .tc main_v1)
      = shapeCast S8192x2048 (W1 m ρ c (Proc.devRef .tc main_arg0)) shapeCasts_S4x2048x2048_S8192x2048 := by
  show StableHlo.after hostOps1 (W1 m ρ c) (Proc.devRef .tc main_v1) = _
  after_results
  rfl

/-- The reshape between the regions does not write region 0's output array. -/
theorem W2_weights (c : Dev nD) :
    W2 m ρ c (Proc.devRef .tc main_v0) = W1 m ρ c (Proc.devRef .tc main_v0) := by
  show StableHlo.after hostOps1 (W1 m ρ c) (Proc.devRef .tc main_v0) = _
  after_results

/-- THE RESULT BUFFER after the run, given what each region leaves in its output array as a function of what it finds
    (`hq` for the quantiser, `hm` for the product): the specification of the launch arguments. -/
theorem result_eq
    (hq : ∀ (V : (c : Dev nD) → (b : Ref sig .tc) → Buf (Elt Ideal) ((c : Thread nD τ).loc b)) (c : Dev nD),
      (dat0 (F := Ideal) V c).arrAt 1 cfg0.N = ternaryArr (V c main_arg1))
    (hm : ∀ (V : (c : Dev nD) → (b : Ref sig .tc) → Buf (Elt Ideal) ((c : Thread nD τ).loc b)) (c : Dev nD),
      (dat1 (F := Ideal) V c).arrAt 2 cfg1.N = rowsDot (V c main_v1) (V c main_v0))
    (c : Dev nD) :
    W4 m ρ c (Proc.devRef .tc main_v3)
      = linear (m ((c.tc : Thread nD τ).loc main_arg0)) (m ((c.tc : Thread nD τ).loc main_arg1)) := by
  have h3 : W3 m ρ c (Proc.devRef .tc main_v2) = rowsDot (V2 m ρ c main_v1) (V2 m ρ c main_v0) :=
    (W3_arr m ρ c 2).trans (hm (V2 m ρ) c)
  have h1 : V2 m ρ c main_v1
      = shapeCast S8192x2048 (m ((c.tc : Thread nD τ).loc main_arg0)) shapeCasts_S4x2048x2048_S8192x2048 :=
    (W2_acts m ρ c).trans (congrArg (fun a => shapeCast S8192x2048 a shapeCasts_S4x2048x2048_S8192x2048)
      (W1_of_ne m ρ c main_arg0 (by decide)))
  have h0 : V2 m ρ c main_v0 = ternaryArr (m ((c.tc : Thread nD τ).loc main_arg1)) :=
    (W2_weights m ρ c).trans ((W1_arr m ρ c 1).trans (hq (V0 m ρ) c))
  rw [W4_result, h3, h1, h0, reshape_rowsDot]
  rfl

end Cert.KernelIdeal.Gen

end
-- ==== Proof.lean ====
/-
  BitLinear: a linear layer whose weight matrix is quantised row by row to three levels.

  For a weight matrix `w` of 8192 rows and 2048 columns, row `r` has the scale
  `s r = max (c, (∑ k, |w (r, k)|) / 2048)` with `c` the single-precision number nearest 1e-5, and the ternary weight is
  `q (r, k) = clip (roundeven (w (r, k) / s r), -1, 1) · s r`. The layer maps activations `x` of shape [4, 2048, 2048] to
  `out (b, s, o) = ∑ k, x (b, s, k) · q (o, k)` (Proof/Spec.lean).

  The kernel computes `q` in a first region, 1024 rows at a time (a row's ternary weights depend on that row alone, so the
  eight blocks are the blocks of one array: Proof/QuantPayload.lean, Proof/QuantRegion.lean), reshapes `x` to [8192, 2048],
  multiplies it by the transpose of `q` tile by tile in a second region, each 1024 × 1024 tile a full contraction over the
  2048 columns (Proof/MatmulRegion.lean), and reshapes the product back (Proof/KernelValue.lean reads the four steps
  together; Proof/KernelRun.lean is the run with the result buffer named).

  The reference computes `q` the same way, operation by operation and constant by constant, then passes it through a
  straight-through estimator, `w + (q - w)`, and contracts `x` against that. On the extended reals `w + (q - w) = q`
  exactly when `w` is a real number: this is the one place the finiteness of the inputs is used
  (Proof/Finite.lean, Proof/RefValue.lean). Changes of float format are the identity on the extended reals, and the kernel's
  and the host's division, rounding, maximum, minimum and absolute value are the same functions there, so both sides are
  the specification.
-/
import proofs.«138639_j2525440770142_1_alg».proof.Defs
import proofs.«138639_j2525440770142_1_alg».proof.Proof.Gen.Kernel
import proofs.«138639_j2525440770142_1_alg».proof.Proof.Gen.Kernel.Skeleton
import proofs.«138639_j2525440770142_1_alg».proof.Proof.Gen.Kernel.Launch
import proofs.«138639_j2525440770142_1_alg».proof.Proof.Gen.Kernel.Points
import proofs.«138639_j2525440770142_1_alg».proof.Proof.Gen.Kernel.Frame
import proofs.«138639_j2525440770142_1_alg».proof.Proof.Gen.KernelIdeal
import proofs.«138639_j2525440770142_1_alg».proof.Proof.Gen.KernelIdeal.Skeleton
import proofs.«138639_j2525440770142_1_alg».proof.Proof.Gen.KernelIdeal.Launch
import proofs.«138639_j2525440770142_1_alg».proof.Proof.Gen.KernelIdeal.Points
import proofs.«138639_j2525440770142_1_alg».proof.Proof.Gen.KernelIdeal.Frame
import proofs.«138639_j2525440770142_1_alg».proof.Proof.Gen.ReferenceIdeal
import proofs.«138639_j2525440770142_1_alg».proof.Proof.Gen.ReferenceIdeal.Run
import proofs.«138639_j2525440770142_1_alg».proof.Proof.Gen.ReferenceIdeal.Read
import proofs.«138639_j2525440770142_1_alg».proof.Proof.Gen.Pre_finite_inputs
import proofs.«138639_j2525440770142_1_alg».proof.Proof.Spec
import proofs.«138639_j2525440770142_1_alg».proof.Proof.Finite
import proofs.«138639_j2525440770142_1_alg».proof.Proof.RefValue
import proofs.«138639_j2525440770142_1_alg».proof.Proof.KernelRun
import proofs.«138639_j2525440770142_1_alg».proof.Proof.QuantRegion
import proofs.«138639_j2525440770142_1_alg».proof.Proof.MatmulRegion
import proofs.«138639_j2525440770142_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Over the extended reals, from memories that agree on `x` and `w` with every entry finite, both programs end with
    the result at `∑ k, x (b, s, k) · q (o, k)`: the kernel by its two regions and two reshapes, the reference by its
    stages and the straight-through law at real weights. -/
theorem algebraic : Cert.algebraic_KernelIdeal_ReferenceIdeal := by
  intro m ρ m' ρ' hpre hagree
  refine ⟨fun c => Cert.BitLinear.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Gen.result_eq m ρ Cert.KernelIdeal.Gen.quant_arr Cert.KernelIdeal.Gen.matmul_arr c), (h c).2⟩)
      (Cert.KernelIdeal.Gen.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, (hagree c).1, (hagree c).2]
    exact Cert.BitLinear.ref_linear _ _ (Cert.BitLinear.weight_real _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
